-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S64 : Shape := ⟨1, ![64]⟩
abbrev S64x2048x1024 : Shape := ⟨3, ![64, 2048, 1024]⟩
abbrev S64x1024x2048 : Shape := ⟨3, ![64, 1024, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S64x2048x1024 : S_.BroadcastsInDim S64x2048x1024 (![] : Fin 0 → Fin S64x2048x1024.rank)
  reducesTo_S64x2048x1024_S_d0_1_2 : S64x2048x1024.ReducesTo [0, 1, 2] S_
  bcast_S_S64x1024x2048 : S_.BroadcastsInDim S64x1024x2048 (![] : Fin 0 → Fin S64x1024x2048.rank)
  reducesTo_S64x1024x2048_S_d0_1_2 : S64x1024x2048.ReducesTo [0, 1, 2] S_

variable [Facts]

def fn_part1 {F : FTy → Type} [FloatOps F] (main_v13 : IVec S_ 1) (main_v16 : IVec S64x1024x2048 1) : IVec S_ 1 :=
  let main_c_5 : IVec S_ 1 := constantI S_ 1 1#1
  let main_v17 : IVec S_ 1 := (fun x v => Host.reduce IntOp.andi x v reducesTo_S64x1024x2048_S_d0_1_2 h_S_) main_v16 main_c_5
  let main_v18 : IVec S_ 1 := andi main_v13 main_v17
  main_v18

def fn {F : FTy → Type} [FloatOps F] (main_arg0 : FVec F S4096x2048 .f32) (main_arg1 : IVec S64 32) (main_arg2 : FVec F S64x2048x1024 .f32) (main_arg3 : FVec F S64x2048x1024 .f32) (main_arg4 : FVec F S64x1024x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S64x2048x1024 .f32 := Host.absf main_arg2
  let main_cst_0 : FVec F S_ .f32 := constant S_ .f32 0x7F800000#32
  let main_v5 : FVec F S64x2048x1024 .f32 := broadcastInDim S64x2048x1024 ![] bcast_S_S64x2048x1024 main_cst_0
  let main_v6 : IVec S64x2048x1024 1 := cmpf .olt main_v4 main_v5
  let main_c_1 : IVec S_ 1 := constantI S_ 1 1#1
  let main_v7 : IVec S_ 1 := (fun x v => Host.reduce IntOp.andi x v reducesTo_S64x2048x1024_S_d0_1_2 h_S_) main_v6 main_c_1
  let main_v8 : IVec S_ 1 := andi main_v3 main_v7
  let main_v9 : FVec F S64x2048x1024 .f32 := Host.absf main_arg3
  let main_cst_2 : FVec F S_ .f32 := constant S_ .f32 0x7F800000#32
  let main_v10 : FVec F S64x2048x1024 .f32 := broadcastInDim S64x2048x1024 ![] bcast_S_S64x2048x1024 main_cst_2
  let main_v11 : IVec S64x2048x1024 1 := cmpf .olt main_v9 main_v10
  let main_c_3 : IVec S_ 1 := constantI S_ 1 1#1
  let main_v12 : IVec S_ 1 := (fun x v => Host.reduce IntOp.andi x v reducesTo_S64x2048x1024_S_d0_1_2 h_S_) main_v11 main_c_3
  let main_v13 : IVec S_ 1 := andi main_v8 main_v12
  let main_v14 : FVec F S64x1024x2048 .f32 := Host.absf main_arg4
  let main_cst_4 : FVec F S_ .f32 := constant S_ .f32 0x7F800000#32
  let main_v15 : FVec F S64x1024x2048 .f32 := broadcastInDim S64x1024x2048 ![] bcast_S_S64x1024x2048 main_cst_4
  let main_v16 : IVec S64x1024x2048 1 := cmpf .olt main_v14 main_v15
  fn_part1 (F := F) main_v13 main_v16
-- ==== Kernel.lean ====
abbrev S4096x2048 : Shape := ⟨2, ![4096, 2048]⟩
abbrev S64 : Shape := ⟨1, ![64]⟩
abbrev S64x2048x1024 : Shape := ⟨3, ![64, 2048, 1024]⟩
abbrev S64x1024x2048 : Shape := ⟨3, ![64, 1024, 2048]⟩
abbrev S64x64x2048 : Shape := ⟨3, ![64, 64, 2048]⟩
abbrev S1x64x2048 : Shape := ⟨3, ![1, 64, 2048]⟩
abbrev S1x2048x512 : Shape := ⟨3, ![1, 2048, 512]⟩
abbrev S1x512x2048 : Shape := ⟨3, ![1, 512, 2048]⟩
abbrev S64x2048 : Shape := ⟨2, ![64, 2048]⟩
abbrev S2048x512 : Shape := ⟨2, ![2048, 512]⟩
abbrev S64x512 : Shape := ⟨2, ![64, 512]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S64, .i32⟩
  | .hbm, ⟨2, _⟩ => ⟨S64x2048x1024, .f32⟩
  | .hbm, ⟨3, _⟩ => ⟨S64x2048x1024, .f32⟩
  | .hbm, ⟨4, _⟩ => ⟨S64x1024x2048, .f32⟩
  | .hbm, ⟨5, _⟩ => ⟨S64x64x2048, .f32⟩
  | .hbm, ⟨6, _⟩ => ⟨S64x64x2048, .f32⟩
  | .hbm, ⟨7, _⟩ => ⟨S4096x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1x64x2048, .f32⟩
  | .local _ .vmem, ⟨9, _⟩ => ⟨S1x64x2048, .f32⟩
  | .local _ .vmem, ⟨10, _⟩ => ⟨S64x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096x2048_S64x64x2048 : S4096x2048.ShapeCasts S64x64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S64x2048_S1x64x2048 : S64x2048.ShapeCasts S1x64x2048
  shapeCasts_S64x64x2048_S4096x2048 : S64x64x2048.ShapeCasts S4096x2048
  dot_S64x2048_S2048x512_S64x512_1_0_0_1_n_n_wf : DotDims.WF S64x2048 S2048x512 S64x512 [1] [0] [0] [1] [] []
  dot_S64x512_S512x2048_S64x2048_1_0_0_1_n_n_wf : DotDims.WF S64x512 S512x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S64x64x2048.size a
  hwx0_0 : ∀ i : grid0.Coords, EltTy.bits .f32 = 32 ∨ (Rect.block (s := S64x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S64x2048x1024.size a
  hwx0_1 : ∀ i : grid0.Coords, EltTy.bits .f32 = 32 ∨ (Rect.block (s := S64x2048x1024) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S64x2048x1024.size a
  hwx0_2 : ∀ i : grid0.Coords, EltTy.bits .f32 = 32 ∨ (Rect.block (s := S64x2048x1024) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S64x1024x2048.size a
  hwx0_3 : ∀ i : grid0.Coords, EltTy.bits .f32 = 32 ∨ (Rect.block (s := S64x1024x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S64x64x2048.size a
  hwx0_4 : ∀ i : grid0.Coords, EltTy.bits .f32 = 32 ∨ (Rect.block (s := S64x64x2048) S1x64x2048.size (cc0_transform_4 i) (hinb0_4 i)).WholeWords (EltTy.packing .f32)

variable [Facts₀]

def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.ofSpec (Memref.whole main_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S64 : Shape := ⟨1, ![64]⟩
abbrev S64x2048x1024 : Shape := ⟨3, ![64, 2048, 1024]⟩
abbrev S64x1024x2048 : Shape := ⟨3, ![64, 1024, 2048]⟩
abbrev S64x64x2048 : Shape := ⟨3, ![64, 64, 2048]⟩
abbrev S64x64x1024 : Shape := ⟨3, ![64, 64, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S64, .i32⟩
  | .hbm, ⟨2, _⟩ => ⟨S64x2048x1024, .f32⟩
  | .hbm, ⟨3, _⟩ => ⟨S64x2048x1024, .f32⟩
  | .hbm, ⟨4, _⟩ => ⟨S64x1024x2048, .f32⟩
  | .hbm, ⟨5, _⟩ => ⟨S64x64x2048, .f32⟩
  | .hbm, ⟨6, _⟩ => ⟨S64x64x1024, .f32⟩
  | .hbm, ⟨7, _⟩ => ⟨S64x64x1024, .f32⟩
  | .hbm, ⟨8, _⟩ => ⟨S64x64x1024, .f32⟩
  | .hbm, ⟨9, _⟩ => ⟨S64x64x1024, .f32⟩
  | .hbm, ⟨10, _⟩ => ⟨S_, .f32⟩
  | .hbm, ⟨11, _⟩ => ⟨S64x64x1024, .f32⟩
  | .hbm, ⟨12, _⟩ => ⟨S64x64x1024, .f32⟩
  | .hbm, ⟨13, _⟩ => ⟨S_, .f32⟩
  | .hbm, ⟨14, _⟩ => ⟨S64x64x1024, .f32⟩
  | .hbm, ⟨15, _⟩ => ⟨S64x64x1024, .f32⟩
  | .hbm, ⟨16, _⟩ => ⟨S64x64x1024, .f32⟩
  | .hbm, ⟨17, _⟩ => ⟨S64x64x1024, .f32⟩
  | .hbm, ⟨18, _⟩ => ⟨S64x64x2048, .f32⟩
  | .hbm, ⟨19, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S4096x2048_S64x64x2048 : S4096x2048.ShapeCasts S64x64x2048
  bcast_S_S64x64x1024 : S_.BroadcastsInDim S64x64x1024 (![] : Fin 0 → Fin S64x64x1024.rank)
  shapeCasts_S64x64x2048_S4096x2048 : S64x64x2048.ShapeCasts S4096x2048
  dot_S64x64x2048_S64x2048x1024_S64x64x1024_2_1_1_2_0_0_wf : DotDims.WF S64x64x2048 S64x2048x1024 S64x64x1024 [2] [1] [1] [2] [0] [0]
  dot_S64x64x1024_S64x1024x2048_S64x64x2048_2_1_1_2_0_0_wf : DotDims.WF S64x64x1024 S64x1024x2048 S64x64x2048 [2] [1] [1] [2] [0] [0]

variable [Facts₀]

def dot_S64x64x2048_S64x2048x1024_S64x64x1024_2_1_1_2_0_0 : DotDims S64x64x2048 S64x2048x1024 S64x64x1024 where
  lhsContracting := [2]
  rhsContracting := [1]
  lhsNonContracting := [1]
  rhsNonContracting := [2]
  lhsBatch := [0]
  rhsBatch := [0]
  wf := dot_S64x64x2048_S64x2048x1024_S64x64x1024_2_1_1_2_0_0_wf
def dot_S64x64x1024_S64x1024x2048_S64x64x2048_2_1_1_2_0_0 : DotDims S64x64x1024 S64x1024x2048 S64x64x2048 where
  lhsContracting := [2]
  rhsContracting := [1]
  lhsNonContracting := [1]
  rhsNonContracting := [2]
  lhsBatch := [0]
  rhsBatch := [0]
  wf := dot_S64x64x1024_S64x1024x2048_S64x64x2048_2_1_1_2_0_0_wf

class Facts : Prop extends Facts₀ where

variable [Facts]
-- ==== Proof.Spec.lean ====
/-
  The mathematics of the claim, free of both programs.

  Sixty-four experts each own sixty-four consecutive tokens.  For expert `e`, token `t` of that expert and
  hidden column `k`, the gate and up projections are the inner products of the token's 2048 features with
  column `k` of the expert's two [2048, 1024] weight matrices (`proj`).  The hidden activation is the gated
  product `(g · σ(g)) · u` with `σ` the logistic function (`hidden`), and the result entry `(e, t, d)` is the
  inner product of the 1024 hidden activations with column `d` of the expert's [1024, 2048] down matrix
  (`expertOut`).

  One side computes that last inner product in one sweep over the 1024 hidden columns, the other in two halves of
  512 columns added onto a zero.  Over the extended reals addition is a commutative monoid, so splitting a finite
  sum into two consecutive ranges (and the zero in front) needs no finiteness: `expertOut_split`.
-/
import Idealize.ShloMosaic.Lib.ValueIdx
import Idealize.ShloMosaic.PureOps.Ideal

noncomputable section

namespace Cert.MoeSpec

open Idealize.ShloMosaic Idealize.ShloMosaic.ValueIdx

/-- Tokens grouped by expert: [expert, token, feature]. -/
abbrev Tok := (⟨3, ![64, 64, 2048]⟩ : Shape).Idx → EReal
/-- A gate or up weight: [expert, feature, hidden column]. -/
abbrev WIn := (⟨3, ![64, 2048, 1024]⟩ : Shape).Idx → EReal
/-- The down weight: [expert, hidden column, feature]. -/
abbrev WOut := (⟨3, ![64, 1024, 2048]⟩ : Shape).Idx → EReal

/-- Entry `(e, t, k)` of tokens times a [2048, 1024] weight, expert by expert. -/
def proj (x : Tok) (W : WIn) (e t : Fin 64) (k : Fin 1024) : EReal :=
  ∑ j : Fin 2048, x (ix3 e t j) * W (ix3 e j k)

/-- The gated hidden activation `(g · σ(g)) · u`. -/
def hidden (x : Tok) (G U : WIn) (e t : Fin 64) (k : Fin 1024) : EReal :=
  (proj x G e t k * Ideal.logistic (proj x G e t k)) * proj x U e t k

/-- Entry `(e, t, d)` of the result: the hidden activations against column `d` of the down weight. -/
def expertOut (x : Tok) (G U : WIn) (D : WOut) (e t : Fin 64) (d : Fin 2048) : EReal :=
  ∑ k : Fin 1024, hidden x G U e t k * D (ix3 e k d)

/-- Hidden column `512 h + k`: column `k` of half `h`. -/
def col (h : Fin 2) (k : Fin 512) : Fin 1024 := ⟨512 * h.val + k.val, by have := h.isLt; have := k.isLt; omega⟩

/-- The part of `expertOut` contributed by the 512 hidden columns of half `h`. -/
def halfOut (x : Tok) (G U : WIn) (D : WOut) (h : Fin 2) (e t : Fin 64) (d : Fin 2048) : EReal :=
  ∑ k : Fin 512, hidden x G U e t (col h k) * D (ix3 e (col h k) d)

/-- A sum over 1024 columns is the sum over the first 512 plus the sum over the last 512. -/
theorem sum_halves (f : Fin 1024 → EReal) :
    ∑ k : Fin 1024, f k = (∑ k : Fin 512, f (col 0 k)) + ∑ k : Fin 512, f (col 1 k) := by
  have h := Fin.sum_univ_add (M := EReal) (a := 512) (b := 512) (fun k => f k)
  refine h.trans ?_
  congr 1 <;> exact Finset.sum_congr rfl fun k _ => congrArg f (Fin.ext (by simp [col]))

/-- The result entry is the two halves added, in order, onto a zero. -/
theorem expertOut_split (x : Tok) (G U : WIn) (D : WOut) (e t : Fin 64) (d : Fin 2048) :
    (0 + halfOut x G U D 0 e t d) + halfOut x G U D 1 e t d = expertOut x G U D e t d := by
  rw [zero_add]
  exact (sum_halves fun k => hidden x G U e t k * D (ix3 e k d)).symm

/-- The binary word of `1.0` denotes the real number one. -/
theorem ofBits_one : Ideal.ofBits .f32 0x3F800000#32 = 1 := by
  simp [Ideal.ofBits, Ideal.ieee, -EReal.coe_mul]; norm_num

end Cert.MoeSpec

end
-- ==== Proof.Pieces.lean ====
/-
  What one run of the kernel body leaves behind, as values.

  The body keeps a [64, 2048] accumulator between the two hidden halves of an expert.  At the first half it
  stores a zero block into the accumulator, reads it back and stores the updated sum; at the second half it reads
  what the first half left and stores the updated sum, then copies the accumulator, re-cast to [1, 64, 2048], into
  the result block.  Every store covers its whole buffer and every load reads a whole buffer, so what a buffer
  holds afterwards is the last value stored, with each load replaced by the contents it read:

    first half  : accumulator = update(blocks, zero block)
    second half : accumulator = update(blocks, previous accumulator);  result block = recast(accumulator)

  where `update` is the body's one arithmetic payload (previous + hidden-half · down-half) and the blocks are the
  token block and the three weight blocks of the grid point.  Stated at any float instance.
-/
import proofs.«134014_j79285096284331_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The zero offsets of a rank-2 and of a rank-3 whole-buffer rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

/-- First half of an expert: the accumulator ends at the update of the zero block. -/
theorem scratch_first (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : cond0_0 i) (hc1 : ¬cond0_1 i) (x0 : Vec F S1x64x2048 .f32) (x1 : Vec F S1x2048x512 .f32) (x2 : Vec F S1x2048x512 .f32) (x3 : Vec F S1x512x2048 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S64x2048) hz2, View.readCov_unit_zero (S := S64x2048) _ hz2]
  simp only [View.readAt_eq_ld, harg2.read_unread, harg3.read_unread, harg4.read_unread, harg5.read_unread, harg7.read_unread,
    View.ld_unit_zero (S := S1x64x2048) hz3, View.ld_unit_zero (S := S1x2048x512) hz3, View.ld_unit_zero (S := S1x512x2048) hz3,
    View.ld_unit_zero (S := S64x2048) hz2]

/-- Second half: the accumulator ends at the update of what it held before. -/
theorem scratch_second (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬cond0_0 i) (hc1 : cond0_1 i) (x0 : Vec F S1x64x2048 .f32) (x1 : Vec F S1x2048x512 .f32) (x2 : Vec F S1x2048x512 .f32) (x3 : Vec F S1x512x2048 .f32) (xs0 : Vec F S64x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S1x64x2048) hz3, View.ld_unit_zero (S := S1x2048x512) hz3, View.ld_unit_zero (S := S1x512x2048) hz3,
    View.ld_unit_zero (S := S64x2048) hz2]

/-- Second half: the result block is that accumulator, re-cast. -/
theorem block_second (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬cond0_0 i) (hc1 : cond0_1 i) (x0 : Vec F S1x64x2048 .f32) (x1 : Vec F S1x2048x512 .f32) (x2 : Vec F S1x2048x512 .f32) (x3 : Vec F S1x512x2048 .f32) (xs0 : Vec F S64x2048 .f32) :
    out0_B_4 c i arg2 harg2 arg3 harg3 arg4 harg4 arg5 harg5 arg6 harg6 arg7 harg7 hc0 hc1 x0 x1 x2 x3 xs0 = k0_pay3 (k0_pay2 x0 x1 x2 x3 xs0) := by
  unfold out0_B_4
  rw [View.read_writes_eq_canon _ _ _ (cover0_B_4 c i arg2 harg2 arg3 harg3 arg4 harg4 arg5 harg5 arg6 harg6 arg7 harg7 hc0 hc1 x0 x1 x2 x3 xs0)]
  unfold kernelRun0_B
  dsimp only
  sl_unfold_words
  rw [View.canon_unit_zero hz3]
  simp only [View.readCov_unit_zero (S := S64x2048) _ hz2, View.readAt_eq_ld, harg2.read_unread, harg3.read_unread, harg4.read_unread, harg5.read_unread, harg7.read_unread,
    View.ld_unit_zero (S := S1x64x2048) hz3, View.ld_unit_zero (S := S1x2048x512) hz3, View.ld_unit_zero (S := S1x512x2048) hz3,
    View.ld_unit_zero (S := S64x2048) hz2]

end Cert.KernelIdeal.Pieces

end
-- ==== Proof.Payload.lean ====
/-
  The body's arithmetic at one entry, over the extended reals.

  With the token block `x0` [1, 64, 2048], the gate and up blocks `x1`, `x2` [1, 2048, 512], the down block `x3`
  [1, 512, 2048] and the previous accumulator `xs` [64, 2048], the update the body stores is

    update (r, d) = xs (r, d) + Σ_{k < 512} ((g_rk · σ(g_rk)) · u_rk) · x3 (0, k, d),
    g_rk = Σ_{j < 2048} x0 (0, r, j) · x1 (0, j, k),   u_rk = Σ_{j < 2048} x0 (0, r, j) · x2 (0, j, k).

  A change of float format is the identity on extended reals, a matrix product into a zero accumulator is the bare
  sum over the contracted axis, and dropping or adding a leading unit axis only renames the index.
-/
import proofs.«134014_j79285096284331_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx

/-! ## The two products' dimension records: which operand entries meet at an output entry -/

/-- [64, 2048] × [2048, 512]: the left operand's row is the output's row, -/
theorem lhsIn_0 (i : S64x512.Idx) (q : dot_S64x2048_S2048x512_S64x512_1_0_0_1_n_n.contr.Idx) :
    (dot_S64x2048_S2048x512_S64x512_1_0_0_1_n_n.lhsIdx i q 0).val = (i 0).val := by
  unfold DotDims.lhsIdx
  rw [dif_neg (show ¬(0 : Fin S64x2048.rank) ∈ dot_S64x2048_S2048x512_S64x512_1_0_0_1_n_n.lhsBatch by decide), dif_pos (show (0 : Fin S64x2048.rank) ∈ dot_S64x2048_S2048x512_S64x512_1_0_0_1_n_n.lhsNonContracting by decide)]
  rfl
/-- its column the contracted position; -/
theorem lhsIn_1 (i : S64x512.Idx) (q : dot_S64x2048_S2048x512_S64x512_1_0_0_1_n_n.contr.Idx) :
    (dot_S64x2048_S2048x512_S64x512_1_0_0_1_n_n.lhsIdx i q 1).val = (q ⟨0, by decide⟩).val :=
  dot_S64x2048_S2048x512_S64x512_1_0_0_1_n_n.lhsIdx_val_of_single rfl i q
/-- the right operand's row the contracted position, -/
theorem rhsIn_0 (i : S64x512.Idx) (q : dot_S64x2048_S2048x512_S64x512_1_0_0_1_n_n.contr.Idx) :
    (dot_S64x2048_S2048x512_S64x512_1_0_0_1_n_n.rhsIdx i q 0).val = (q ⟨0, by decide⟩).val :=
  dot_S64x2048_S2048x512_S64x512_1_0_0_1_n_n.rhsIdx_val_of_single rfl i q
/-- its column the output's column. -/
theorem rhsIn_1 (i : S64x512.Idx) (q : dot_S64x2048_S2048x512_S64x512_1_0_0_1_n_n.contr.Idx) :
    (dot_S64x2048_S2048x512_S64x512_1_0_0_1_n_n.rhsIdx i q 1).val = (i 1).val := by
  unfold DotDims.rhsIdx
  rw [dif_neg (show ¬(1 : Fin S2048x512.rank) ∈ dot_S64x2048_S2048x512_S64x512_1_0_0_1_n_n.rhsBatch by decide), dif_pos (show (1 : Fin S2048x512.rank) ∈ dot_S64x2048_S2048x512_S64x512_1_0_0_1_n_n.rhsNonContracting by decide)]
  rfl

/-- The same four facts for [64, 512] × [512, 2048]. -/
theorem lhsOut_0 (i : S64x2048.Idx) (q : dot_S64x512_S512x2048_S64x2048_1_0_0_1_n_n.contr.Idx) :
    (dot_S64x512_S512x2048_S64x2048_1_0_0_1_n_n.lhsIdx i q 0).val = (i 0).val := by
  unfold DotDims.lhsIdx
  rw [dif_neg (show ¬(0 : Fin S64x512.rank) ∈ dot_S64x512_S512x2048_S64x2048_1_0_0_1_n_n.lhsBatch by decide), dif_pos (show (0 : Fin S64x512.rank) ∈ dot_S64x512_S512x2048_S64x2048_1_0_0_1_n_n.lhsNonContracting by decide)]
  rfl
theorem lhsOut_1 (i : S64x2048.Idx) (q : dot_S64x512_S512x2048_S64x2048_1_0_0_1_n_n.contr.Idx) :
    (dot_S64x512_S512x2048_S64x2048_1_0_0_1_n_n.lhsIdx i q 1).val = (q ⟨0, by decide⟩).val :=
  dot_S64x512_S512x2048_S64x2048_1_0_0_1_n_n.lhsIdx_val_of_single rfl i q
theorem rhsOut_0 (i : S64x2048.Idx) (q : dot_S64x512_S512x2048_S64x2048_1_0_0_1_n_n.contr.Idx) :
    (dot_S64x512_S512x2048_S64x2048_1_0_0_1_n_n.rhsIdx i q 0).val = (q ⟨0, by decide⟩).val :=
  dot_S64x512_S512x2048_S64x2048_1_0_0_1_n_n.rhsIdx_val_of_single rfl i q
theorem rhsOut_1 (i : S64x2048.Idx) (q : dot_S64x512_S512x2048_S64x2048_1_0_0_1_n_n.contr.Idx) :
    (dot_S64x512_S512x2048_S64x2048_1_0_0_1_n_n.rhsIdx i q 1).val = (i 1).val := by
  unfold DotDims.rhsIdx
  rw [dif_neg (show ¬(1 : Fin S512x2048.rank) ∈ dot_S64x512_S512x2048_S64x2048_1_0_0_1_n_n.rhsBatch by decide), dif_pos (show (1 : Fin S512x2048.rank) ∈ dot_S64x512_S512x2048_S64x2048_1_0_0_1_n_n.rhsNonContracting by decide)]
  rfl

/-- A [64, 2048] × [2048, 512] product into the zero accumulator, at `(r, k)`: the row of the left operand against
    the column of the right. -/
theorem prodIn_apply {φ₁ φ₂ : FTy} (a : FVec Ideal S64x2048 φ₁) (b : FVec Ideal S2048x512 φ₂) (r : Fin 64) (k : Fin 512) :
    matmul dot_S64x2048_S2048x512_S64x512_1_0_0_1_n_n none a b (constant (F := Ideal) S64x512 .f32 0x00000000#32) (ix2 r k)
      = ∑ j : Fin 2048, a (ix2 r j) * b (ix2 j k) := by
  simp only [matmul]
  rw [Ideal.matmul_constant_zero_apply, ← Equiv.sum_comp (contrEquiv1 dot_S64x2048_S2048x512_S64x512_1_0_0_1_n_n 2048 rfl rfl).symm]
  refine Finset.sum_congr rfl fun j _ => ?_
  have hk := contrEquiv1_symm_val dot_S64x2048_S2048x512_S64x512_1_0_0_1_n_n 2048 rfl rfl j
  have el : dot_S64x2048_S2048x512_S64x512_1_0_0_1_n_n.lhsIdx (ix2 r k) ((contrEquiv1 dot_S64x2048_S2048x512_S64x512_1_0_0_1_n_n 2048 rfl rfl).symm j) = ix2 r j := funext fun a => Fin.ext (by
    match a with
    | ⟨0, _⟩ => exact lhsIn_0 _ _
    | ⟨1, _⟩ => exact (lhsIn_1 _ _).trans hk)
  have er : dot_S64x2048_S2048x512_S64x512_1_0_0_1_n_n.rhsIdx (ix2 r k) ((contrEquiv1 dot_S64x2048_S2048x512_S64x512_1_0_0_1_n_n 2048 rfl rfl).symm j) = ix2 j k := funext fun a => Fin.ext (by
    match a with
    | ⟨0, _⟩ => exact (rhsIn_0 _ _).trans hk
    | ⟨1, _⟩ => exact rhsIn_1 _ _)
  rw [el, er]

/-- A [64, 512] × [512, 2048] product into the zero accumulator, at `(r, d)`. -/
theorem prodOut_apply {φ₁ φ₂ : FTy} (a : FVec Ideal S64x512 φ₁) (b : FVec Ideal S512x2048 φ₂) (r : Fin 64) (d : Fin 2048) :
    matmul dot_S64x512_S512x2048_S64x2048_1_0_0_1_n_n none a b (constant (F := Ideal) S64x2048 .f32 0x00000000#32) (ix2 r d)
      = ∑ k : Fin 512, a (ix2 r k) * b (ix2 k d) := by
  simp only [matmul]
  rw [Ideal.matmul_constant_zero_apply, ← Equiv.sum_comp (contrEquiv1 dot_S64x512_S512x2048_S64x2048_1_0_0_1_n_n 512 rfl rfl).symm]
  refine Finset.sum_congr rfl fun k _ => ?_
  have hk := contrEquiv1_symm_val dot_S64x512_S512x2048_S64x2048_1_0_0_1_n_n 512 rfl rfl k
  have el : dot_S64x512_S512x2048_S64x2048_1_0_0_1_n_n.lhsIdx (ix2 r d) ((contrEquiv1 dot_S64x512_S512x2048_S64x2048_1_0_0_1_n_n 512 rfl rfl).symm k) = ix2 r k := funext fun a => Fin.ext (by
    match a with
    | ⟨0, _⟩ => exact lhsOut_0 _ _
    | ⟨1, _⟩ => exact (lhsOut_1 _ _).trans hk)
  have er : dot_S64x512_S512x2048_S64x2048_1_0_0_1_n_n.rhsIdx (ix2 r d) ((contrEquiv1 dot_S64x512_S512x2048_S64x2048_1_0_0_1_n_n 512 rfl rfl).symm k) = ix2 k d := funext fun a => Fin.ext (by
    match a with
    | ⟨0, _⟩ => exact (rhsOut_0 _ _).trans hk
    | ⟨1, _⟩ => exact rhsOut_1 _ _)
  rw [el, er]

/-! ## The update, one named value at a time -/

/-- The token block as a [64, 2048] matrix (the leading unit axis dropped). -/
def tokM (x0 : Vec Ideal S1x64x2048 .f32) : FVec Ideal S64x2048 .bf16 :=
  truncf .bf16 (shapeCast S64x2048 x0 shapeCasts_S1x64x2048_S64x2048) bitsLt_bf16_f32
/-- A gate or up block as a [2048, 512] matrix. -/
def inM (x1 : Vec Ideal S1x2048x512 .f32) : FVec Ideal S2048x512 .bf16 :=
  truncf .bf16 (shapeCast S2048x512 x1 shapeCasts_S1x2048x512_S2048x512) bitsLt_bf16_f32
/-- The down block as a [512, 2048] matrix. -/
def outM (x3 : Vec Ideal S1x512x2048 .f32) : FVec Ideal S512x2048 .bf16 :=
  truncf .bf16 (shapeCast S512x2048 x3 shapeCasts_S1x512x2048_S512x2048) bitsLt_bf16_f32
/-- Tokens times a gate or up block. -/
def projM (x0 : Vec Ideal S1x64x2048 .f32) (x1 : Vec Ideal S1x2048x512 .f32) : FVec Ideal S64x512 .f32 :=
  matmul dot_S64x2048_S2048x512_S64x512_1_0_0_1_n_n none (tokM x0) (inM x1) (constant (F := Ideal) S64x512 .f32 0x00000000#32)
/-- The gated hidden block `(g · σ(g)) · u`. -/
def hidM (x0 : Vec Ideal S1x64x2048 .f32) (x1 x2 : Vec Ideal S1x2048x512 .f32) : FVec Ideal S64x512 .bf16 :=
  truncf .bf16 (mulf (mulf (projM x0 x1) (logistic (projM x0 x1))) (projM x0 x2)) bitsLt_bf16_f32

/-- The stored update is the previous accumulator plus hidden block times down block. -/
theorem update_eq (x0 : Vec Ideal S1x64x2048 .f32) (x1 x2 : Vec Ideal S1x2048x512 .f32) (x3 : Vec Ideal S1x512x2048 .f32)
    (xs : Vec Ideal S64x2048 .f32) :
    k0_pay2 (F := Ideal) x0 x1 x2 x3 xs
      = shapeCast S64x2048 (addf xs (matmul dot_S64x512_S512x2048_S64x2048_1_0_0_1_n_n none (hidM x0 x1 x2) (outM x3)
          (constant (F := Ideal) S64x2048 .f32 0x00000000#32))) shapeCasts_S64x2048_S64x2048 := rfl

theorem tokM_apply (x0 : Vec Ideal S1x64x2048 .f32) (r : Fin 64) (j : Fin 2048) : tokM x0 (ix2 r j) = x0 (ix3 (0 : Fin 1) r j) :=
  shapeCast_1ab_ab_apply x0 shapeCasts_S1x64x2048_S64x2048 r j
theorem inM_apply (x1 : Vec Ideal S1x2048x512 .f32) (j : Fin 2048) (k : Fin 512) : inM x1 (ix2 j k) = x1 (ix3 (0 : Fin 1) j k) :=
  shapeCast_1ab_ab_apply x1 shapeCasts_S1x2048x512_S2048x512 j k
theorem outM_apply (x3 : Vec Ideal S1x512x2048 .f32) (k : Fin 512) (d : Fin 2048) : outM x3 (ix2 k d) = x3 (ix3 (0 : Fin 1) k d) :=
  shapeCast_1ab_ab_apply x3 shapeCasts_S1x512x2048_S512x2048 k d

/-- Entry `(r, k)` of tokens times a weight block. -/
def projAt (x0 : Vec Ideal S1x64x2048 .f32) (x1 : Vec Ideal S1x2048x512 .f32) (r : Fin 64) (k : Fin 512) : EReal :=
  ∑ j : Fin 2048, (x0 (ix3 (0 : Fin 1) r j) : EReal) * (x1 (ix3 (0 : Fin 1) j k) : EReal)

theorem projM_apply (x0 : Vec Ideal S1x64x2048 .f32) (x1 : Vec Ideal S1x2048x512 .f32) (r : Fin 64) (k : Fin 512) :
    projM x0 x1 (ix2 r k) = projAt x0 x1 r k := by
  unfold projM projAt
  rw [prodIn_apply]
  exact Finset.sum_congr rfl fun j _ => by rw [tokM_apply, inM_apply]

/-- Entry `(r, k)` of the gated hidden block. -/
def hidAt (x0 : Vec Ideal S1x64x2048 .f32) (x1 x2 : Vec Ideal S1x2048x512 .f32) (r : Fin 64) (k : Fin 512) : EReal :=
  (projAt x0 x1 r k * Ideal.logistic (projAt x0 x1 r k)) * projAt x0 x2 r k

theorem hidM_apply (x0 : Vec Ideal S1x64x2048 .f32) (x1 x2 : Vec Ideal S1x2048x512 .f32) (r : Fin 64) (k : Fin 512) :
    hidM x0 x1 x2 (ix2 r k) = hidAt x0 x1 x2 r k := by
  show (projM x0 x1 (ix2 r k) * Ideal.logistic (projM x0 x1 (ix2 r k))) * projM x0 x2 (ix2 r k) = _
  rw [projM_apply, projM_apply]
  rfl

/-- THE UPDATE at `(r, d)`: the previous accumulator plus the 512 hidden columns of this half against the down block. -/
theorem update_apply (x0 : Vec Ideal S1x64x2048 .f32) (x1 x2 : Vec Ideal S1x2048x512 .f32) (x3 : Vec Ideal S1x512x2048 .f32)
    (xs : Vec Ideal S64x2048 .f32) (r : Fin 64) (d : Fin 2048) :
    k0_pay2 (F := Ideal) x0 x1 x2 x3 xs (ix2 r d)
      = (xs (ix2 r d) : EReal) + ∑ k : Fin 512, hidAt x0 x1 x2 r k * (x3 (ix3 (0 : Fin 1) k d) : EReal) := by
  rw [update_eq, shapeCast_self]
  show (xs (ix2 r d) : EReal) + matmul dot_S64x512_S512x2048_S64x2048_1_0_0_1_n_n none (hidM x0 x1 x2) (outM x3)
          (constant (F := Ideal) S64x2048 .f32 0x00000000#32) (ix2 r d) = _
  rw [prodOut_apply]
  exact congrArg _ (Finset.sum_congr rfl fun k _ => by rw [hidM_apply, outM_apply])

/-- The zero block the first half stores. -/
theorem zero_apply (i : S64x2048.Idx) : k0_pay1 (F := Ideal) i = (0 : EReal) := by
  unfold k0_pay1
  rw [shapeCast_self]
  exact Ideal.ofBits_zero_f32

/-- The result block is the accumulator with a leading unit axis. -/
theorem recast_apply (v : Vec Ideal S64x2048 .f32) (u : Fin 1) (r : Fin 64) (d : Fin 2048) :
    k0_pay3 (F := Ideal) v (ix3 u r d) = v (ix2 r d) :=
  shapeCast_ab_1ab_apply v shapeCasts_S64x2048_S1x64x2048 u r d

end Cert.KernelIdeal.Payload

end
-- ==== Proof.Blocks.lean ====
/-
  Which entries of the whole arrays a grid point's blocks hold.

  The grid has 128 points, two per expert: point `t` works on expert `t / 2` and hidden half `t % 2`.  Its token
  block is the expert's [64, 2048] slab of the grouped tokens; its gate and up blocks are hidden columns
  `512 (t % 2) … 512 (t % 2) + 511` of the expert's weight; its down block is the same 512 hidden ROWS of the expert's
  down weight.  Each block's index map is decided once over the 128 points; a block entry's array coordinate is
  always  block index × block extent + coordinate inside the block.
-/
import proofs.«134014_j79285096284331_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The index maps, decided over the grid -/

theorem idxTok : ∀ t : Fin cfg0.N, win0_0.index t 0 = t.val / 2 ∧ win0_0.index t 1 = 0 ∧ win0_0.index t 2 = 0 :=
  (by decide +kernel : ∀ t : Fin grid0.N, win0_0.index t 0 = t.val / 2 ∧ win0_0.index t 1 = 0 ∧ win0_0.index t 2 = 0)
theorem idxGate : ∀ t : Fin cfg0.N, win0_1.index t 0 = t.val / 2 ∧ win0_1.index t 1 = 0 ∧ win0_1.index t 2 = t.val % 2 :=
  (by decide +kernel : ∀ t : Fin grid0.N, win0_1.index t 0 = t.val / 2 ∧ win0_1.index t 1 = 0 ∧ win0_1.index t 2 = t.val % 2)
theorem idxUp : ∀ t : Fin cfg0.N, win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2)
theorem idxDown : ∀ t : Fin cfg0.N, win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0)
theorem idxRes : ∀ t : Fin cfg0.N, win0_4.index t 0 = t.val / 2 ∧ win0_4.index t 1 = 0 ∧ win0_4.index t 2 = 0 :=
  (by decide +kernel : ∀ t : Fin grid0.N, win0_4.index t 0 = t.val / 2 ∧ win0_4.index t 1 = 0 ∧ win0_4.index t 2 = 0)

/-! ## The arrays as the region finds them, and the blocks, at their literal types -/

/-- The grouped tokens [64, 64, 2048]. -/
abbrev tokArr (c : Dev nD) : Vec F S64x64x2048 .f32 := V m c main_v0
/-- The gate, up and down weights. -/
abbrev gateArr (c : Dev nD) : Vec F S64x2048x1024 .f32 := V m c main_arg2
abbrev upArr (c : Dev nD) : Vec F S64x2048x1024 .f32 := V m c main_arg3
abbrev downArr (c : Dev nD) : Vec F S64x1024x2048 .f32 := V m c main_arg4

abbrev tokBlk (c : Dev nD) (t : Fin cfg0.N) : Vec F S1x64x2048 .f32 := iblk m c 0 t
abbrev gateBlk (c : Dev nD) (t : Fin cfg0.N) : Vec F S1x2048x512 .f32 := iblk m c 1 t
abbrev upBlk (c : Dev nD) (t : Fin cfg0.N) : Vec F S1x2048x512 .f32 := iblk m c 2 t
abbrev downBlk (c : Dev nD) (t : Fin cfg0.N) : Vec F S1x512x2048 .f32 := iblk m c 3 t

/-! ## A block entry is an array entry -/

/-- The token block of point `t` is expert `t / 2`'s slab. -/
theorem tokBlk_apply (c : Dev nD) (t : Fin cfg0.N) (u : Fin 1) (r : Fin 64) (j : Fin 2048) (e : Fin 64) (he : e.val = t.val / 2) :
    tokBlk m c t (ix3 u r j) = tokArr m c (ix3 e r j) := by
  show ((cfg0.win 0).blk t).view.read (Elt F) (V m c (Pipeline.arrRef spec0 0)) (ix3 u r j) = _
  rw [View.read_apply]
  show V m c main_v0 _ = V m c main_v0 _
  congr 1
  funext a
  apply Fin.ext
  have hu : u.val = 0 := by omega
  match a with
  | ⟨0, _⟩ => show win0_0.index t 0 * 1 + 1 * u.val = e.val; rw [(idxTok t).1]; omega
  | ⟨1, _⟩ => show win0_0.index t 1 * 64 + 1 * r.val = r.val; rw [(idxTok t).2.1]; omega
  | ⟨2, _⟩ => show win0_0.index t 2 * 2048 + 1 * j.val = j.val; rw [(idxTok t).2.2]; omega

/-- The gate block of point `t`: expert `t / 2`, hidden column `512 (t % 2) + k`. -/
theorem gateBlk_apply (c : Dev nD) (t : Fin cfg0.N) (u : Fin 1) (j : Fin 2048) (k : Fin 512) (e : Fin 64) (he : e.val = t.val / 2)
    (k' : Fin 1024) (hk : k'.val = 512 * (t.val % 2) + k.val) :
    gateBlk m c t (ix3 u j k) = gateArr m c (ix3 e j k') := by
  show ((cfg0.win 1).blk t).view.read (Elt F) (V m c (Pipeline.arrRef spec0 1)) (ix3 u j k) = _
  rw [View.read_apply]
  show V m c main_arg2 _ = V m c main_arg2 _
  congr 1
  funext a
  apply Fin.ext
  have hu : u.val = 0 := by omega
  match a with
  | ⟨0, _⟩ => show win0_1.index t 0 * 1 + 1 * u.val = e.val; rw [(idxGate t).1]; omega
  | ⟨1, _⟩ => show win0_1.index t 1 * 2048 + 1 * j.val = j.val; rw [(idxGate t).2.1]; omega
  | ⟨2, _⟩ => show win0_1.index t 2 * 512 + 1 * k.val = k'.val; rw [(idxGate t).2.2]; omega

/-- The up block of point `t`: the same columns of the up weight. -/
theorem upBlk_apply (c : Dev nD) (t : Fin cfg0.N) (u : Fin 1) (j : Fin 2048) (k : Fin 512) (e : Fin 64) (he : e.val = t.val / 2)
    (k' : Fin 1024) (hk : k'.val = 512 * (t.val % 2) + k.val) :
    upBlk m c t (ix3 u j k) = upArr m c (ix3 e j k') := by
  show ((cfg0.win 2).blk t).view.read (Elt F) (V m c (Pipeline.arrRef spec0 2)) (ix3 u j k) = _
  rw [View.read_apply]
  show V m c main_arg3 _ = V m c main_arg3 _
  congr 1
  funext a
  apply Fin.ext
  have hu : u.val = 0 := by omega
  match a with
  | ⟨0, _⟩ => show win0_2.index t 0 * 1 + 1 * u.val = e.val; rw [(idxUp t).1]; omega
  | ⟨1, _⟩ => show win0_2.index t 1 * 2048 + 1 * j.val = j.val; rw [(idxUp t).2.1]; omega
  | ⟨2, _⟩ => show win0_2.index t 2 * 512 + 1 * k.val = k'.val; rw [(idxUp t).2.2]; omega

/-- The down block of point `t`: expert `t / 2`, hidden ROW `512 (t % 2) + k`. -/
theorem downBlk_apply (c : Dev nD) (t : Fin cfg0.N) (u : Fin 1) (k : Fin 512) (d : Fin 2048) (e : Fin 64) (he : e.val = t.val / 2)
    (k' : Fin 1024) (hk : k'.val = 512 * (t.val % 2) + k.val) :
    downBlk m c t (ix3 u k d) = downArr m c (ix3 e k' d) := by
  show ((cfg0.win 3).blk t).view.read (Elt F) (V m c (Pipeline.arrRef spec0 3)) (ix3 u k d) = _
  rw [View.read_apply]
  show V m c main_arg4 _ = V m c main_arg4 _
  congr 1
  funext a
  apply Fin.ext
  have hu : u.val = 0 := by omega
  match a with
  | ⟨0, _⟩ => show win0_3.index t 0 * 1 + 1 * u.val = e.val; rw [(idxDown t).1]; omega
  | ⟨1, _⟩ => show win0_3.index t 1 * 512 + 1 * k.val = k'.val; rw [(idxDown t).2.1]; omega
  | ⟨2, _⟩ => show win0_3.index t 2 * 2048 + 1 * d.val = d.val; rw [(idxDown t).2.2]; omega

end Cert.KernelIdeal.Blocks

end
-- ==== Proof.Accum.lean ====
/-
  The accumulator over the two grid points of an expert.

  Point `2e` (hidden half 0) resets the accumulator and leaves  0 + (half 0 of expert e's result);
  point `2e + 1` (hidden half 1) adds half 1 onto it and copies the sum into the result block.
  By the split of the 1024-column sum into its two halves this block is expert `e`'s slab of the specification.
  Nothing is carried from one expert to the next: an even point never reads what the point before left.
-/
import proofs.«134014_j79285096284331_1_alg».proof.Proof.Spec
import proofs.«134014_j79285096284331_1_alg».proof.Proof.Pieces
import proofs.«134014_j79285096284331_1_alg».proof.Proof.Payload
import proofs.«134014_j79285096284331_1_alg».proof.Proof.Blocks

noncomputable section

namespace Cert.KernelIdeal.Accum

open Cert.KernelIdeal Cert.KernelIdeal.Gen Cert.KernelIdeal.Pieces Cert.KernelIdeal.Payload Cert.KernelIdeal.Blocks
open Idealize.ShloMosaic Idealize.ShloMosaic.TcCoe Idealize.SL.Sem Idealize.ShloMosaic.ValueIdx
open Cert.MoeSpec

variable (m : (ℓ : Loc nD τ sig) → Buf (Elt Ideal) ℓ)

/-- Tokens times a weight block at point `t`, entry `(r, k)`: the specification's projection at hidden column
    `512 (t % 2) + k` of expert `t / 2`. -/
theorem projAt_gate (c : Dev nD) (t : Fin cfg0.N) (e : Fin 64) (he : e.val = t.val / 2) (h : Fin 2) (hh : h.val = t.val % 2)
    (r : Fin 64) (k : Fin 512) :
    projAt (tokBlk m c t) (gateBlk m c t) r k = proj (tokArr m c) (gateArr m c) e r (col h k) := by
  unfold projAt proj
  refine Finset.sum_congr rfl fun j _ => ?_
  rw [tokBlk_apply m c t 0 r j e he, gateBlk_apply m c t 0 j k e he (col h k) (by simp only [col]; omega)]

theorem projAt_up (c : Dev nD) (t : Fin cfg0.N) (e : Fin 64) (he : e.val = t.val / 2) (h : Fin 2) (hh : h.val = t.val % 2)
    (r : Fin 64) (k : Fin 512) :
    projAt (tokBlk m c t) (upBlk m c t) r k = proj (tokArr m c) (upArr m c) e r (col h k) := by
  unfold projAt proj
  refine Finset.sum_congr rfl fun j _ => ?_
  rw [tokBlk_apply m c t 0 r j e he, upBlk_apply m c t 0 j k e he (col h k) (by simp only [col]; omega)]

/-- What a point's update adds to the accumulator: its half of the expert's result. -/
theorem update_point (c : Dev nD) (t : Fin cfg0.N) (e : Fin 64) (he : e.val = t.val / 2) (h : Fin 2) (hh : h.val = t.val % 2)
    (xs : Vec Ideal S64x2048 .f32) (r : Fin 64) (d : Fin 2048) :
    k0_pay2 (F := Ideal) (tokBlk m c t) (gateBlk m c t) (upBlk m c t) (downBlk m c t) xs (ix2 r d)
      = (xs (ix2 r d) : EReal) + halfOut (tokArr m c) (gateArr m c) (upArr m c) (downArr m c) h e r d := by
  rw [update_apply]
  refine congrArg _ (Finset.sum_congr rfl fun k _ => ?_)
  unfold hidAt MoeSpec.hidden
  rw [projAt_gate m c t e he h hh r k, projAt_up m c t e he h hh r k,
    downBlk_apply m c t 0 k d e he (col h k) (by simp only [col]; omega)]

/-- After an even point the accumulator holds zero plus half 0 of the expert's result. -/
theorem scratch_even (c : Dev nD) (t : Fin cfg0.N) (h0 : t.val % 2 = 0) (e : Fin 64) (he : e.val = t.val / 2)
    (r : Fin 64) (d : Fin 2048) :
    ((outsAt0 m c t.val t.isLt).2 (ix2 r d) : EReal)
      = 0 + halfOut (tokArr m c) (gateArr m c) (upArr m c) (downArr m c) 0 e r d := by
  have h1 : ¬t.val % 2 = 1 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 r d)).trans ?_
  refine (update_point m c t e he 0 (by simp only [Fin.val_zero]; omega) (k0_pay1 (F := Ideal)) r d).trans ?_
  rw [zero_apply]

/-- After an odd point the result block holds the expert's slab of the specification. -/
theorem block_odd (c : Dev nD) (t : Fin cfg0.N) (h1 : t.val % 2 = 1) (e : Fin 64) (he : e.val = t.val / 2)
    (u : Fin 1) (r : Fin 64) (d : Fin 2048) :
    ((outsAt0 m c t.val t.isLt).1 (ix3 u r d) : EReal)
      = expertOut (tokArr m c) (gateArr m c) (upArr m c) (downArr m c) e r d := by
  have h0 : ¬t.val % 2 = 0 := by omega
  have hlt : t.val - 1 < cfg0.N := Nat.lt_of_le_of_lt (Nat.sub_le _ _) t.isLt
  have hprev := scratch_even m c ⟨t.val - 1, hlt⟩ (by show (t.val - 1) % 2 = 0; omega) e (by show e.val = (t.val - 1) / 2; omega) r d
  rw [outsAt0_B m c t h0 h1]
  dsimp only
  refine (congrFun (block_second (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) hlt).2) (ix3 u r d)).trans ?_
  rw [recast_apply]
  refine (update_point m c t e he 1 (by simp only [Fin.val_one]; omega) (outsAt0 m c (t.val - 1) hlt).2 r d).trans ?_
  refine (congrArg (· + halfOut (tokArr m c) (gateArr m c) (upArr m c) (downArr m c) 1 e r d) hprev).trans ?_
  exact expertOut_split _ _ _ _ e r d

end Cert.KernelIdeal.Accum

end
-- ==== Proof.Whole.lean ====
/-
  From blocks to the whole result.

  Only the odd grid points write a block back, and point `2e + 1` writes expert `e`'s [1, 64, 2048] slab, so the 64
  written blocks tile the [64, 64, 2048] array and it ends holding the specification at every index.  Around the
  region the program only re-groups: the tokens [4096, 2048] are split into 64 groups of 64 before it and the
  result's groups are laid end to end after it.
-/
import proofs.«134014_j79285096284331_1_alg».proof.Proof.Accum
import Idealize.ShloMosaic.Lib.StableHlo.Run

noncomputable section

namespace Cert.KernelIdeal.Whole

open Cert.KernelIdeal Cert.KernelIdeal.Gen Cert.KernelIdeal.Blocks Cert.KernelIdeal.Accum
open Idealize.ShloMosaic Idealize.ShloMosaic.TcCoe Idealize.SL.Sem Idealize.ShloMosaic.ValueIdx
open Idealize.ShloMosaic.Pipeline (Dat)
open Cert.MoeSpec

/-- The specification as an array: entry `(e, t, d)` for every index. -/
def specArr (x : Tok) (G U : WIn) (D : WOut) : Tok := fun i => expertOut x G U D (i 0) (i 1) (i 2)

variable (m : (ℓ : Loc nD τ sig) → Buf (Elt Ideal) ℓ) (ρ : Dev nD → PrngReg)

/-- The specification of the arrays as the region finds them. -/
def resultArr (c : Dev nD) : Vec Ideal S64x64x2048 .f32 :=
  specArr (tokArr m c) (gateArr m c) (upArr m c) (downArr m c)

/-- What an odd point writes back is its block of the specification. -/
theorem flushed_eq (c : Dev nD) (t : Fin cfg0.N) (hf : (cfg0.win 4).flush t = true) :
    (dats m 0 c).flushed 4 t = ((cfg0.win 4).blk t).view.read (Elt Ideal) (resultArr m c) := by
  have h1 : t.val % 2 = 1 := (flush0_4 t).mp hf
  have hN : t.val < 128 := lt_of_lt_of_eq t.isLt (show cfg0.N = 128 from N_0)
  show (cfg0.win 4).cut (grid0.coords t) ((dats m 0 c).after 4 t) = _
  rw [after0_4]
  funext y
  obtain ⟨u, r, d, rfl⟩ : ∃ (u : Fin 1) (r : Fin 64) (d : Fin 2048), y = ix3 u r d := ⟨y 0, y 1, y 2, eq_ix3 y⟩
  show ((outsAt0 m c t.val t.isLt).1 (ix3 u r d) : EReal) = resultArr m c (((cfg0.win 4).blk t).view.emb (ix3 u r d))
  have hu : u.val = 0 := by omega
  have hemb : ((cfg0.win 4).blk t).view.emb (ix3 u r d) = ix3 (⟨t.val / 2, by omega⟩ : Fin 64) r d := by
    funext a; apply Fin.ext
    match a with
    | ⟨0, _⟩ => show win0_4.index t 0 * 1 + 1 * u.val = t.val / 2; rw [(idxRes t).1]; omega
    | ⟨1, _⟩ => show win0_4.index t 1 * 64 + 1 * r.val = r.val; rw [(idxRes t).2.1]; omega
    | ⟨2, _⟩ => show win0_4.index t 2 * 2048 + 1 * d.val = d.val; rw [(idxRes t).2.2]; omega
  rw [hemb]
  exact block_odd m c t h1 ⟨t.val / 2, by omega⟩ rfl u r d

/-- An index of the array is in point `t`'s block iff each coordinate is in the block's range on its axis. -/
theorem mem_blk (t : Fin cfg0.N) (i : S64x64x2048.Idx) :
    i ∈ ((cfg0.win 4).blk t).view.set ↔ ∀ a : Fin 3, win0_4.index t a * S1x64x2048.size a ≤ (i a).val ∧ (i a).val < win0_4.index t a * S1x64x2048.size a + S1x64x2048.size a := by
  show i ∈ ((View.whole main_v1).slice (win0_4.rect t)).set ↔ _
  rw [View.set_slice_whole, Rect.mem_set_unit]
  exact Iff.rfl

/-- Every index is in the block written at the second point of its expert. -/
theorem cover (i : S64x64x2048.Idx) :
    ∃ t : Fin cfg0.N, (cfg0.win 4).flush t = true ∧ i ∈ ((cfg0.win 4).blk t).view.set := by
  have h0 : (i 0).val < 64 := (i 0).isLt
  have h1 : (i 1).val < 64 := (i 1).isLt
  have h2 : (i 2).val < 2048 := (i 2).isLt
  have hlt : 2 * (i 0).val + 1 < cfg0.N := by rw [show cfg0.N = 128 from N_0]; omega
  refine ⟨⟨2 * (i 0).val + 1, hlt⟩, (flush0_4 _).mpr (by show (2 * (i 0).val + 1) % 2 = 1; omega), ?_⟩
  rw [mem_blk]
  obtain ⟨e0, e1, e2⟩ := idxRes ⟨2 * (i 0).val + 1, hlt⟩
  have e0' : win0_4.index ⟨2 * (i 0).val + 1, hlt⟩ 0 = (2 * (i 0).val + 1) / 2 := e0
  intro a
  match a with
  | ⟨0, _⟩ => show win0_4.index ⟨2 * (i 0).val + 1, hlt⟩ 0 * 1 ≤ (i 0).val ∧ (i 0).val < win0_4.index ⟨2 * (i 0).val + 1, hlt⟩ 0 * 1 + 1; rw [e0']; omega
  | ⟨1, _⟩ => show win0_4.index ⟨2 * (i 0).val + 1, hlt⟩ 1 * 64 ≤ (i 1).val ∧ (i 1).val < win0_4.index ⟨2 * (i 0).val + 1, hlt⟩ 1 * 64 + 64; rw [e1]; omega
  | ⟨2, _⟩ => show win0_4.index ⟨2 * (i 0).val + 1, hlt⟩ 2 * 2048 ≤ (i 2).val ∧ (i 2).val < win0_4.index ⟨2 * (i 0).val + 1, hlt⟩ 2 * 2048 + 2048; rw [e2]; omega

/-- The region's result array ends at the specification. -/
theorem final (c : Dev nD) : (dats m 0 c).arrAt 4 cfg0.N = resultArr m c :=
  (dats m 0 c).arrAt_eq_of_cover 4 (resultArr m c) (flushed_eq m c) (cover)

/-- Before the region the tokens are re-grouped by expert. -/
theorem tokArr_eq (c : Dev nD) :
    tokArr m c = shapeCast S64x64x2048 (m ((c : Thread nD τ).loc main_arg0)) shapeCasts_S4096x2048_S64x64x2048 := by
  show StableHlo.after hostOps0 (fun b => m (c, b)) (Proc.devRef .tc main_v0) = _
  after_results
  rfl

/-- After the region the groups are laid end to end. -/
theorem tail_eq (c : Dev nD) :
    Pipeline.afterTail₀ cfgs (dats m) 0 (V0 m) [hostOps1] c main_v2
      = shapeCast S4096x2048 (resultArr m c) shapeCasts_S64x64x2048_S4096x2048 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = resultArr m c :=
    (Pipeline.withArrays_arr spec0 launch0.win.arr_inj c _ _ 4).trans (final m c)
  exact congrArg (fun A : Vec Ideal S64x64x2048 .f32 => shapeCast S4096x2048 A shapeCasts_S64x64x2048_S4096x2048) e

/-- The weights reach the region as launched, so the region's specification is that of the launch contents. -/
theorem resultArr_eq (c : Dev nD) :
    resultArr m c = specArr (shapeCast S64x64x2048 (m ((c : Thread nD τ).loc main_arg0)) shapeCasts_S4096x2048_S64x64x2048)
      (m ((c : Thread nD τ).loc main_arg2) : Vec Ideal S64x2048x1024 .f32) (m ((c : Thread nD τ).loc main_arg3) : Vec Ideal S64x2048x1024 .f32)
      (m ((c : Thread nD τ).loc main_arg4) : Vec Ideal S64x1024x2048 .f32) := by
  unfold resultArr
  rw [tokArr_eq m c, show gateArr m c = m ((c : Thread nD τ).loc main_arg2) from V_main_arg2 m c,
    show upArr m c = m ((c : Thread nD τ).loc main_arg3) from V_main_arg3 m c,
    show downArr m c = m ((c : Thread nD τ).loc main_arg4) from V_main_arg4 m c]

/-- The program's result as a function of the launch contents: re-group, specification, lay end to end. -/
def kernelResult (c : Dev nD) : Buf (Elt Ideal) ((c.tc : Thread nD τ).loc main_v2) :=
  shapeCast S4096x2048 (specArr (shapeCast S64x64x2048 (m ((c : Thread nD τ).loc main_arg0)) shapeCasts_S4096x2048_S64x64x2048)
      (m ((c : Thread nD τ).loc main_arg2) : Vec Ideal S64x2048x1024 .f32) (m ((c : Thread nD τ).loc main_arg3) : Vec Ideal S64x2048x1024 .f32)
      (m ((c : Thread nD τ).loc main_arg4) : Vec Ideal S64x1024x2048 .f32)) shapeCasts_S64x64x2048_S4096x2048

/-- THE RUN, READ: every weakly fair execution ends with the result at `kernelResult` and the arguments unchanged. -/
theorem run : θ_run defs (onTc (τ := τ) (main (F := Ideal))) ⟨m, fun _ => 0, ρ⟩ (fun r => ∀ c : Dev nD,
      r.2.mem ((c.tc : Thread nD τ).loc main_v2) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (((h c).2 main_v2 (Pipeline.mem_restRefs_of main_v2 (by decide) (by decide))).trans (tail_eq m c)).trans
        (by rw [resultArr_eq m c]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩) (run_main m ρ)

end Cert.KernelIdeal.Whole

end
-- ==== Proof.RefValue.lean ====
/-
  The reference's result, index by index.

  The reference re-groups the tokens by expert, takes the two batched products with the gate and up weights,
  forms  g · (1 / (1 + exp(−g)))  and multiplies by the up projection, takes the batched product with the down
  weight, and lays the groups end to end.  On the extended reals  1 / (1 + exp(−g))  is the logistic function by
  its definition, the word of 1.0 is the number one, and a batched product read at an entry is the inner product
  over the contracted axis, so the [64, 64, 2048] stage before the last re-grouping is the specification at every
  index.
-/
import proofs.«134014_j79285096284331_1_alg».proof.Defs
import proofs.«134014_j79285096284331_1_alg».proof.Proof.Gen.ReferenceIdeal.Run
import proofs.«134014_j79285096284331_1_alg».proof.Proof.Gen.ReferenceIdeal.Read
import proofs.«134014_j79285096284331_1_alg».proof.Proof.Spec

noncomputable section

namespace Cert.ReferenceIdeal.RefValue

open Cert.ReferenceIdeal Cert.ReferenceIdeal.Read
open Idealize.ShloMosaic Idealize.ShloMosaic.TcCoe Idealize.ShloMosaic.ValueIdx
open Cert.MoeSpec

variable (x0 : (⟨S4096x2048, .f32⟩ : BufTy).Contents (Elt Ideal)) (G U : (⟨S64x2048x1024, .f32⟩ : BufTy).Contents (Elt Ideal))
  (D : (⟨S64x1024x2048, .f32⟩ : BufTy).Contents (Elt Ideal))

/-- The gate product at `(e, t, k)`. -/
theorem gate_apply (e t : Fin 64) (k : Fin 1024) :
    val_main_v1 (F := Ideal) x0 G (ix3 e t k) = proj (val_main_v0 (F := Ideal) x0) G e t k := by
  rw [val_main_v1_apply]
  unfold proj
  refine Finset.sum_congr rfl fun j _ => ?_
  have el : lidx_main_v1 (ix3 e t k) j = ix3 e t j := funext fun a => Fin.ext (by
    match a with
    | ⟨0, _⟩ => rfl
    | ⟨1, _⟩ => rfl
    | ⟨2, _⟩ => rfl)
  have er : ridx_main_v1 (ix3 e t k) j = ix3 e j k := funext fun a => Fin.ext (by
    match a with
    | ⟨0, _⟩ => rfl
    | ⟨1, _⟩ => rfl
    | ⟨2, _⟩ => rfl)
  rw [el, er]

/-- The up product at `(e, t, k)`. -/
theorem up_apply (e t : Fin 64) (k : Fin 1024) :
    val_main_v2 (F := Ideal) x0 U (ix3 e t k) = proj (val_main_v0 (F := Ideal) x0) U e t k := by
  rw [val_main_v2_apply]
  unfold proj
  refine Finset.sum_congr rfl fun j _ => ?_
  have el : lidx_main_v2 (ix3 e t k) j = ix3 e t j := funext fun a => Fin.ext (by
    match a with
    | ⟨0, _⟩ => rfl
    | ⟨1, _⟩ => rfl
    | ⟨2, _⟩ => rfl)
  have er : ridx_main_v2 (ix3 e t k) j = ix3 e j k := funext fun a => Fin.ext (by
    match a with
    | ⟨0, _⟩ => rfl
    | ⟨1, _⟩ => rfl
    | ⟨2, _⟩ => rfl)
  rw [el, er]

/-- The gated activation at `(e, t, k)`: the spelled-out quotient is the logistic function. -/
theorem hidden_apply (e t : Fin 64) (k : Fin 1024) :
    val_main_v4 (F := Ideal) x0 G U (ix3 e t k) = MoeSpec.hidden (val_main_v0 (F := Ideal) x0) G U e t k := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, gate_apply, up_apply]
  simp only [Ideal.mulf_def, Ideal.hostDivf_def, Ideal.addf_def, Ideal.hostUnary_exp_def, Ideal.hostNegf_def, Ideal.ofBits_def,
    ofBits_one]
  rfl

/-- The last product at `(e, t, d)` is the specification's entry. -/
theorem out_apply (e t : Fin 64) (d : Fin 2048) :
    val_main_v5 (F := Ideal) x0 G U D (ix3 e t d) = expertOut (val_main_v0 (F := Ideal) x0) G U D e t d := by
  rw [val_main_v5_apply]
  unfold expertOut
  refine Finset.sum_congr rfl fun k _ => ?_
  have el : lidx_main_v5 (ix3 e t d) k = ix3 e t k := funext fun a => Fin.ext (by
    match a with
    | ⟨0, _⟩ => rfl
    | ⟨1, _⟩ => rfl
    | ⟨2, _⟩ => rfl)
  have er : ridx_main_v5 (ix3 e t d) k = ix3 e k d := funext fun a => Fin.ext (by
    match a with
    | ⟨0, _⟩ => rfl
    | ⟨1, _⟩ => rfl
    | ⟨2, _⟩ => rfl)
  rw [el, er, hidden_apply]

/-- The stage before the last re-grouping is the specification as an array. -/
theorem stage_eq :
    val_main_v5 (F := Ideal) x0 G U D = fun i => expertOut (val_main_v0 (F := Ideal) x0) G U D (i 0) (i 1) (i 2) := by
  funext i
  obtain ⟨e, t, d, rfl⟩ : ∃ (e t : Fin 64) (d : Fin 2048), i = ix3 e t d := ⟨i 0, i 1, i 2, eq_ix3 i⟩
  exact out_apply x0 G U D e t d

end Cert.ReferenceIdeal.RefValue

end
-- ==== Proof.lean ====
/-
  A grouped gated feed-forward layer: 4096 tokens in 64 groups of 64, one expert per group.

  For expert `e`, token `t` of its group and output feature `d`,

      out[64 e + t, d] = Σ_{k < 1024} ((g_k · σ(g_k)) · u_k) · Down[e, k, d],
      g_k = Σ_{j < 2048} x[64 e + t, j] · Gate[e, j, k],     u_k = Σ_{j < 2048} x[64 e + t, j] · Up[e, j, k],

  with `σ` the logistic function (Proof/Spec.lean).  The reference computes exactly this with three batched products
  and spells `σ(g)` as `1 / (1 + exp(−g))`, which is the logistic function's definition on the extended reals
  (Proof/RefValue.lean).  The kernel visits each expert at two grid points, one per half of the 1024 hidden columns:
  the first stores zero into an accumulator and adds its half, the second adds the other half and writes the
  expert's block (Proof/Pieces.lean, Payload.lean, Blocks.lean, Accum.lean); the 64 written blocks tile the result
  (Proof/Whole.lean).  The two agree because a finite sum splits into two consecutive ranges and zero is neutral for
  addition — laws of a commutative monoid, true of the extended reals with no finiteness assumption, so the
  precondition is never opened.  Changes of float format are the identity on extended reals, and the count of
  tokens per expert is read by neither program.  The idealization rewrote nothing, so `preserves` is trivial.
-/
import proofs.«134014_j79285096284331_1_alg».proof.Defs
import proofs.«134014_j79285096284331_1_alg».proof.Proof.Gen.Kernel
import proofs.«134014_j79285096284331_1_alg».proof.Proof.Gen.Kernel.Skeleton
import proofs.«134014_j79285096284331_1_alg».proof.Proof.Gen.Kernel.Launch
import proofs.«134014_j79285096284331_1_alg».proof.Proof.Gen.Kernel.Points
import proofs.«134014_j79285096284331_1_alg».proof.Proof.Gen.Kernel.Frame
import proofs.«134014_j79285096284331_1_alg».proof.Proof.Gen.KernelIdeal
import proofs.«134014_j79285096284331_1_alg».proof.Proof.Gen.KernelIdeal.Skeleton
import proofs.«134014_j79285096284331_1_alg».proof.Proof.Gen.KernelIdeal.Launch
import proofs.«134014_j79285096284331_1_alg».proof.Proof.Gen.KernelIdeal.Points
import proofs.«134014_j79285096284331_1_alg».proof.Proof.Gen.KernelIdeal.Frame
import proofs.«134014_j79285096284331_1_alg».proof.Proof.Gen.ReferenceIdeal
import proofs.«134014_j79285096284331_1_alg».proof.Proof.Gen.Pre_finite_inputs
import proofs.«134014_j79285096284331_1_alg».proof.Proof.Whole
import proofs.«134014_j79285096284331_1_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both programs end at the specification of the launch contents, re-grouped the same way on both sides. -/
theorem algebraic : Cert.algebraic_KernelIdeal_ReferenceIdeal := by
  intro m ρ m' ρ' _ hagree
  refine ⟨fun c => Cert.KernelIdeal.Whole.kernelResult m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  unfold Cert.ReferenceIdeal.Read.val_main_v6
  rw [Cert.ReferenceIdeal.RefValue.stage_eq, (hagree c).1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
